-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩

class Facts : Prop where
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel
  bcast_S_S13x5 : S_.BroadcastsInDim S13x5 (![] : Fin 0 → Fin S13x5.rank)
  reducesTo_S13x5_S_d0_1 : S13x5.ReducesTo [0, 1] S_

variable [Facts]

def fn {F : FTy → Type} [FloatOps F] (main_arg0 : FVec F S8x32x256x512 .f32) (main_arg1 : IVec S8x512 32) (main_arg2 : FVec F S13x5 .f32) : IVec S_ 1 :=
  let main_v0 : FVec F S8x32x256x512 .f32 := Host.absf main_arg0
  let main_cst : FVec F S_ .f32 := constant S_ .f32 0x7F800000#32
  let main_v1 : FVec F S8x32x256x512 .f32 := broadcastInDim S8x32x256x512 ![] bcast_S_S8x32x256x512 main_cst
  let main_v2 : IVec S8x32x256x512 1 := cmpf .olt main_v0 main_v1
  let main_c : IVec S_ 1 := constantI S_ 1 1#1
  let main_v3 : IVec S_ 1 := (fun x v => Host.reduce IntOp.andi x v reducesTo_S8x32x256x512_S_d0_1_2_3 h_S_) main_v2 main_c
  let main_v4 : FVec F S13x5 .f32 := Host.absf main_arg2
  let main_cst_0 : FVec F S_ .f32 := constant S_ .f32 0x7F800000#32
  let main_v5 : FVec F S13x5 .f32 := broadcastInDim S13x5 ![] bcast_S_S13x5 main_cst_0
  let main_v6 : IVec S13x5 1 := cmpf .olt main_v4 main_v5
  let main_c_1 : IVec S_ 1 := constantI S_ 1 1#1
  let main_v7 : IVec S_ 1 := (fun x v => Host.reduce IntOp.andi x v reducesTo_S13x5_S_d0_1 h_S_) main_v6 main_c_1
  let main_v8 : IVec S_ 1 := andi main_v3 main_v7
  main_v8
-- ==== Kernel.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩
abbrev S8x512x1 : Shape := ⟨3, ![8, 512, 1]⟩
abbrev S8x512x5 : Shape := ⟨3, ![8, 512, 5]⟩
abbrev S8x1x1x512 : Shape := ⟨4, ![8, 1, 1, 512]⟩
abbrev S1x4x256x512 : Shape := ⟨4, ![1, 4, 256, 512]⟩
abbrev S1x1x1x512 : Shape := ⟨4, ![1, 1, 1, 512]⟩

abbrev nBuf : Space → Nat
  | .hbm => 28
  | .vmem => 14
  | .smem => 0
  | _ => 0

abbrev bufTy : (tb : Table) → Fin (tcTables nBuf tb) → BufTy
  | .hbm, ⟨0, _⟩ => ⟨S8x32x256x512, .f32⟩
  | .hbm, ⟨1, _⟩ => ⟨S8x512, .i32⟩
  | .hbm, ⟨2, _⟩ => ⟨S13x5, .f32⟩
  | .hbm, ⟨3, _⟩ => ⟨S_, .i32⟩
  | .hbm, ⟨4, _⟩ => ⟨S8x512, .i32⟩
  | .hbm, ⟨5, _⟩ => ⟨S8x512, .i1⟩
  | .hbm, ⟨6, _⟩ => ⟨S_, .i32⟩
  | .hbm, ⟨7, _⟩ => ⟨S8x512, .i32⟩
  | .hbm, ⟨8, _⟩ => ⟨S8x512, .i32⟩
  | .hbm, ⟨9, _⟩ => ⟨S8x512, .i32⟩
  | .hbm, ⟨10, _⟩ => ⟨S8x512x1, .i32⟩
  | .hbm, ⟨11, _⟩ => ⟨S8x512x5, .f32⟩
  | .hbm, ⟨12, _⟩ => ⟨S8x512x1, .f32⟩
  | .hbm, ⟨13, _⟩ => ⟨S8x512, .f32⟩
  | .hbm, ⟨14, _⟩ => ⟨S8x1x1x512, .f32⟩
  | .hbm, ⟨15, _⟩ => ⟨S8x512x1, .f32⟩
  | .hbm, ⟨16, _⟩ => ⟨S8x512, .f32⟩
  | .hbm, ⟨17, _⟩ => ⟨S8x1x1x512, .f32⟩
  | .hbm, ⟨18, _⟩ => ⟨S8x512x1, .f32⟩
  | .hbm, ⟨19, _⟩ => ⟨S8x512, .f32⟩
  | .hbm, ⟨20, _⟩ => ⟨S8x1x1x512, .f32⟩
  | .hbm, ⟨21, _⟩ => ⟨S8x512x1, .f32⟩
  | .hbm, ⟨22, _⟩ => ⟨S8x512, .f32⟩
  | .hbm, ⟨23, _⟩ => ⟨S8x1x1x512, .f32⟩
  | .hbm, ⟨24, _⟩ => ⟨S8x512x1, .f32⟩
  | .hbm, ⟨25, _⟩ => ⟨S8x512, .f32⟩
  | .hbm, ⟨26, _⟩ => ⟨S8x1x1x512, .f32⟩
  | .hbm, ⟨27, _⟩ => ⟨S8x32x256x512, .f32⟩
  | .local _ .vmem, ⟨0, _⟩ => ⟨S1x4x256x512, .f32⟩
  | .local _ .vmem, ⟨1, _⟩ => ⟨S1x4x256x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1x1x1x512, .f32⟩
  | .local _ .vmem, ⟨11, _⟩ => ⟨S1x1x1x512, .f32⟩
  | .local _ .vmem, ⟨12, _⟩ => ⟨S1x4x256x512, .f32⟩
  | .local _ .vmem, ⟨13, _⟩ => ⟨S1x4x256x512, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  slices_S8x512x5_S8x512x1_0_0_0 : S8x512x5.Slices ![0, 0, 0] S8x512x1
  shapeCasts_S8x512x1_S8x512 : S8x512x1.ShapeCasts S8x512
  shapeCasts_S8x512_S8x1x1x512 : S8x512.ShapeCasts S8x1x1x512
  slices_S8x512x5_S8x512x1_0_0_1 : S8x512x5.Slices ![0, 0, 1] S8x512x1
  slices_S8x512x5_S8x512x1_0_0_2 : S8x512x5.Slices ![0, 0, 2] S8x512x1
  slices_S8x512x5_S8x512x1_0_0_3 : S8x512x5.Slices ![0, 0, 3] S8x512x1
  slices_S8x512x5_S8x512x1_0_0_4 : S8x512x5.Slices ![0, 0, 4] S8x512x1
  inb_S1x4x256x512_S1x4x256x512_0_0_0_0 : ∀ a, (![0, 0, 0, 0] : Fin 4 → Nat) a + S1x4x256x512.size a ≤ S1x4x256x512.size a
  h_S1x4x256x512 : 0 < S1x4x256x512.numel
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S1x1x1x512 : S1x1x1x512.ShapeCasts S1x1x1x512
  broadcasts_S1x1x1x512_S1x4x256x512 : S1x1x1x512.Broadcasts S1x4x256x512
  gather_S13x5_S8x512x1_S8x512x5_2_0_n_n_0_2_15_wf : GatherDims.WF S13x5 S8x512x1 S8x512x5 [2] [0] [] [0] [] 2 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x512.size a ≤ S8x32x256x512.size a
  hwx0_0 : ∀ i : grid0.Coords, EltTy.bits .f32 = 32 ∨ (Rect.block (s := S8x32x256x512) S1x4x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x512.size a ≤ S8x1x1x512.size a
  hwx0_1 : ∀ i : grid0.Coords, EltTy.bits .f32 = 32 ∨ (Rect.block (s := S8x1x1x512) S1x1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x512.size a ≤ S8x1x1x512.size a
  hwx0_2 : ∀ i : grid0.Coords, EltTy.bits .f32 = 32 ∨ (Rect.block (s := S8x1x1x512) S1x1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x512.size a ≤ S8x1x1x512.size a
  hwx0_3 : ∀ i : grid0.Coords, EltTy.bits .f32 = 32 ∨ (Rect.block (s := S8x1x1x512) S1x1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x512.size a ≤ S8x1x1x512.size a
  hwx0_4 : ∀ i : grid0.Coords, EltTy.bits .f32 = 32 ∨ (Rect.block (s := S8x1x1x512) S1x1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x512.size a ≤ S8x1x1x512.size a
  hwx0_5 : ∀ i : grid0.Coords, EltTy.bits .f32 = 32 ∨ (Rect.block (s := S8x1x1x512) S1x1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x256x512.size a ≤ S8x32x256x512.size a
  hwx0_6 : ∀ i : grid0.Coords, EltTy.bits .f32 = 32 ∨ (Rect.block (s := S8x32x256x512) S1x4x256x512.size (cc0_transform_6 i) (hinb0_6 i)).WholeWords (EltTy.packing .f32)

variable [Facts₀]

def gather_S13x5_S8x512x1_S8x512x5_2_0_n_n_0_2_15 : GatherDims S13x5 S8x512x1 S8x512x5 where
  offsetDims := [2]
  collapsedSliceDims := [0]
  operandBatchingDims := []
  startIndicesBatchingDims := []
  startIndexMap := [0]
  indexVectorDim := 2
  sliceSizes := ![1, 5]
  wf := gather_S13x5_S8x512x1_S8x512x5_2_0_n_n_0_2_15_wf

abbrev win0_0 : Pipeline.Window sig grid0 :=
  Pipeline.Window.ofSpec (Memref.whole main_arg0) S1x4x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x4x256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩
abbrev S8x512x1 : Shape := ⟨3, ![8, 512, 1]⟩
abbrev S8x512x5 : Shape := ⟨3, ![8, 512, 5]⟩
abbrev S8x1x1x512x5 : Shape := ⟨5, ![8, 1, 1, 512, 5]⟩
abbrev S8x1x1x512x1 : Shape := ⟨5, ![8, 1, 1, 512, 1]⟩
abbrev S8x1x1x512 : Shape := ⟨4, ![8, 1, 1, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x32x256x512, .f32⟩
  | .hbm, ⟨1, _⟩ => ⟨S8x512, .i32⟩
  | .hbm, ⟨2, _⟩ => ⟨S13x5, .f32⟩
  | .hbm, ⟨3, _⟩ => ⟨S_, .i32⟩
  | .hbm, ⟨4, _⟩ => ⟨S8x512, .i32⟩
  | .hbm, ⟨5, _⟩ => ⟨S8x512, .i1⟩
  | .hbm, ⟨6, _⟩ => ⟨S_, .i32⟩
  | .hbm, ⟨7, _⟩ => ⟨S8x512, .i32⟩
  | .hbm, ⟨8, _⟩ => ⟨S8x512, .i32⟩
  | .hbm, ⟨9, _⟩ => ⟨S8x512, .i32⟩
  | .hbm, ⟨10, _⟩ => ⟨S8x512x1, .i32⟩
  | .hbm, ⟨11, _⟩ => ⟨S8x512x5, .f32⟩
  | .hbm, ⟨12, _⟩ => ⟨S8x1x1x512x5, .f32⟩
  | .hbm, ⟨13, _⟩ => ⟨S8x1x1x512x1, .f32⟩
  | .hbm, ⟨14, _⟩ => ⟨S8x1x1x512, .f32⟩
  | .hbm, ⟨15, _⟩ => ⟨S8x1x1x512x1, .f32⟩
  | .hbm, ⟨16, _⟩ => ⟨S8x1x1x512, .f32⟩
  | .hbm, ⟨17, _⟩ => ⟨S8x1x1x512x1, .f32⟩
  | .hbm, ⟨18, _⟩ => ⟨S8x1x1x512, .f32⟩
  | .hbm, ⟨19, _⟩ => ⟨S8x1x1x512x1, .f32⟩
  | .hbm, ⟨20, _⟩ => ⟨S8x1x1x512, .f32⟩
  | .hbm, ⟨21, _⟩ => ⟨S8x1x1x512x1, .f32⟩
  | .hbm, ⟨22, _⟩ => ⟨S8x1x1x512, .f32⟩
  | .hbm, ⟨23, _⟩ => ⟨S8x32x256x512, .f32⟩
  | .hbm, ⟨24, _⟩ => ⟨S8x32x256x512, .f32⟩
  | .hbm, ⟨25, _⟩ => ⟨S8x32x256x512, .f32⟩
  | .hbm, ⟨26, _⟩ => ⟨S8x32x256x512, .f32⟩
  | .hbm, ⟨27, _⟩ => ⟨S_, .f32⟩
  | .hbm, ⟨28, _⟩ => ⟨S8x32x256x512, .f32⟩
  | .hbm, ⟨29, _⟩ => ⟨S8x32x256x512, .f32⟩
  | .hbm, ⟨30, _⟩ => ⟨S8x32x256x512, .f32⟩
  | .hbm, ⟨31, _⟩ => ⟨S8x32x256x512, .f32⟩
  | .hbm, ⟨32, _⟩ => ⟨S8x32x256x512, .i1⟩
  | .hbm, ⟨33, _⟩ => ⟨S8x32x256x512, .f32⟩
  | .hbm, ⟨34, _⟩ => ⟨S8x32x256x512, .f32⟩
  | .hbm, ⟨35, _⟩ => ⟨S8x32x256x512, .f32⟩
  | .hbm, ⟨36, _⟩ => ⟨S8x32x256x512, .f32⟩
  | .hbm, ⟨37, _⟩ => ⟨S8x32x256x512, .f32⟩
  | .hbm, ⟨38, _⟩ => ⟨S8x32x256x512, .f32⟩
  | .hbm, ⟨39, _⟩ => ⟨S8x32x256x512, .f32⟩
  | .hbm, ⟨40, _⟩ => ⟨S8x32x256x512, .f32⟩
  | .hbm, ⟨41, _⟩ => ⟨S8x32x256x512, .f32⟩
  | .hbm, ⟨42, _⟩ => ⟨S8x32x256x512, .f32⟩
  | .hbm, ⟨43, _⟩ => ⟨S8x32x256x512, .f32⟩
  | .hbm, ⟨44, _⟩ => ⟨S8x32x256x512, .f32⟩
  | .hbm, ⟨45, _⟩ => ⟨S8x32x256x512, .f32⟩
  | .hbm, ⟨46, _⟩ => ⟨S8x32x256x512, .f32⟩
  | .hbm, ⟨47, _⟩ => ⟨S8x32x256x512, .f32⟩
  | .hbm, ⟨48, _⟩ => ⟨S8x32x256x512, .f32⟩
  | .hbm, ⟨49, _⟩ => ⟨S8x32x256x512, .f32⟩
  | _, _ => ⟨S8x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x5_S8x1x1x512x5_0_3_4 : S8x512x5.BroadcastsInDim S8x1x1x512x5 (![0, 3, 4] : Fin 3 → Fin S8x1x1x512x5.rank)
  slices_S8x1x1x512x5_S8x1x1x512x1_0_0_0_0_0 : S8x1x1x512x5.Slices ![0, 0, 0, 0, 0] S8x1x1x512x1
  shapeCasts_S8x1x1x512x1_S8x1x1x512 : S8x1x1x512x1.ShapeCasts S8x1x1x512
  slices_S8x1x1x512x5_S8x1x1x512x1_0_0_0_0_1 : S8x1x1x512x5.Slices ![0, 0, 0, 0, 1] S8x1x1x512x1
  slices_S8x1x1x512x5_S8x1x1x512x1_0_0_0_0_2 : S8x1x1x512x5.Slices ![0, 0, 0, 0, 2] S8x1x1x512x1
  slices_S8x1x1x512x5_S8x1x1x512x1_0_0_0_0_3 : S8x1x1x512x5.Slices ![0, 0, 0, 0, 3] S8x1x1x512x1
  slices_S8x1x1x512x5_S8x1x1x512x1_0_0_0_0_4 : S8x1x1x512x5.Slices ![0, 0, 0, 0, 4] S8x1x1x512x1
  bcast_S8x1x1x512_S8x32x256x512_0_1_2_3 : S8x1x1x512.BroadcastsInDim S8x32x256x512 (![0, 1, 2, 3] : Fin 4 → Fin S8x32x256x512.rank)
  bcast_S_S8x32x256x512 : S_.BroadcastsInDim S8x32x256x512 (![] : Fin 0 → Fin S8x32x256x512.rank)
  gather_S13x5_S8x512x1_S8x512x5_2_0_n_n_0_2_15_wf : GatherDims.WF S13x5 S8x512x1 S8x512x5 [2] [0] [] [0] [] 2 ![1, 5]

variable [Facts₀]

def gather_S13x5_S8x512x1_S8x512x5_2_0_n_n_0_2_15 : GatherDims S13x5 S8x512x1 S8x512x5 where
  offsetDims := [2]
  collapsedSliceDims := [0]
  operandBatchingDims := []
  startIndicesBatchingDims := []
  startIndexMap := [0]
  indexVectorDim := 2
  sliceSizes := ![1, 5]
  wf := gather_S13x5_S8x512x1_S8x512x5_2_0_n_n_0_2_15_wf

class Facts : Prop extends Facts₀ where

variable [Facts]
-- ==== Proof.KernelParams.lean ====
/-
  What the blocked program's region finds in its five parameter arrays.

  Before the region the program gathers, for every (group, channel) pair, the row of the 13 × 5 table that the
  pair's mask entry selects (a negative entry counted from the end): the gathered table `[8, 512, 5]`, named
  `table` here and never opened. Each parameter array `[8, 1, 1, 512]` is column `k` of that table — a unit slice
  of the last axis, that axis dropped, and the rest viewed with two unit axes in the middle — so its entry
  `(g, 0, 0, ch)` is the table's entry `(g, ch, k)` (`column_apply`, by the row-major positions of the two reshapes).
-/
import proofs.«131095_j45406394253469_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Params

open Cert.KernelIdeal Cert.KernelIdeal.Gen
open Idealize.ShloMosaic Idealize.ShloMosaic.TcCoe Idealize.SL.Sem Idealize.ShloMosaic.StableHlo Idealize.ShloMosaic.ValueIdx

/-- The gathered parameter table: row `mask[g, ch]` (plus 13 when negative) of the 13 × 5 table, for every pair. -/
def table (x1 : (⟨S8x512, .i32⟩ : BufTy).Contents (Elt Ideal)) (x2 : (⟨S13x5, .f32⟩ : BufTy).Contents (Elt Ideal)) :
    (⟨S8x512x5, .f32⟩ : BufTy).Contents (Elt Ideal) :=
  Host.gather gather_S13x5_S8x512x1_S8x512x5_2_0_n_n_0_2_15 x2
    (broadcastInDim S8x512x1 ![0, 1] bcast_S8x512_S8x512x1_0_1
      (select (cmpi CmpIPredicate.slt x1 (broadcastInDim S8x512 ![] bcast_S_S8x512 (constantI S_ 32 0#32)))
        (addi x1 (broadcastInDim S8x512 ![] bcast_S_S8x512 (constantI S_ 32 13#32))) x1))

/-- Entry `(g, ch, k)` of a table `[8, 512, 5]`, for the index `j = (g, 0, 0, ch)` of a parameter array. -/
abbrev entry (j : S8x1x1x512.Idx) (k : Nat) (hk : k < 5) : S8x512x5.Idx :=
  ix3 (n0 := 8) (n1 := 512) (n2 := 5) ⟨(j 0).val, (j 0).isLt⟩ ⟨(j 3).val, (j 3).isLt⟩ ⟨k, hk⟩

/-- Column `k` of a table `[8, 512, 5]`, its unit axis dropped and two unit axes put in the middle, at `(g, 0, 0, ch)`
    is the table at `(g, ch, k)`. -/
theorem column_apply (k : Nat) (hk : k < 5) (x : S8x512x5.Idx → EReal) (hs : S8x512x5.Slices ![0, 0, k] S8x512x1)
    (h1 : S8x512x1.ShapeCasts S8x512) (h2 : S8x512.ShapeCasts S8x1x1x512) (j : S8x1x1x512.Idx) :
    shapeCast S8x1x1x512 (shapeCast S8x512 (extractStridedSlice S8x512x1 ![0, 0, k] x hs) h1) h2 j = x (entry j k hk) := by
  have b0 : (j 0).val < 8 := (j 0).isLt
  have b1 : (j 1).val < 1 := (j 1).isLt
  have b2 : (j 2).val < 1 := (j 2).isLt
  have b3 : (j 3).val < 512 := (j 3).isLt
  refine (shapeCast_apply _ h2 j (ix2 (n0 := 8) (n1 := 512) ⟨(j 0).val, b0⟩ ⟨(j 3).val, b3⟩) ?_).trans ?_
  · rewrite [Shape.rowMajor_val_two, Shape.rowMajor_val_four]
    show (j 0).val * 512 + (j 3).val = (((j 0).val * 1 + (j 1).val) * 1 + (j 2).val) * 512 + (j 3).val
    omega
  refine (shapeCast_apply _ h1 (ix2 (n0 := 8) (n1 := 512) ⟨(j 0).val, b0⟩ ⟨(j 3).val, b3⟩)
    (ix3 (n0 := 8) (n1 := 512) (n2 := 1) ⟨(j 0).val, b0⟩ ⟨(j 3).val, b3⟩ ⟨0, Nat.one_pos⟩) ?_).trans ?_
  · rewrite [Shape.rowMajor_val_three, Shape.rowMajor_val_two]
    show ((j 0).val * 512 + (j 3).val) * 1 + 0 = (j 0).val * 512 + (j 3).val
    omega
  exact extractStridedSlice_apply ![0, 0, k] x hs _ (entry j k hk) (fun a => match a with
    | ⟨0, _⟩ => by show (j 0).val = 0 + (j 0).val; omega
    | ⟨1, _⟩ => by show (j 3).val = 0 + (j 3).val; omega
    | ⟨2, _⟩ => by show k = k + 0; omega)

variable (m : (ℓ : Loc nD τ sig) → Buf (Elt Ideal) ℓ)

/-- The table the region's program gathers from the launch contents of the mask and of the 13 × 5 table. -/
abbrev tableAt (c : Dev nD) : (⟨S8x512x5, .f32⟩ : BufTy).Contents (Elt Ideal) :=
  table (m ((c : Thread nD τ).loc main_arg1)) (m ((c : Thread nD τ).loc main_arg2))

/-- Parameter array 0 as the region finds it. -/
theorem found_e0 (c : Dev nD) : (V m c main_v9 : S8x1x1x512.Idx → EReal) = fun j => tableAt m c (entry j 0 (by decide)) := by
  have e : (V m c main_v9 : S8x1x1x512.Idx → EReal)
      = shapeCast S8x1x1x512 (shapeCast S8x512 (extractStridedSlice S8x512x1 ![0, 0, 0] (tableAt m c) slices_S8x512x5_S8x512x1_0_0_0)
          shapeCasts_S8x512x1_S8x512) shapeCasts_S8x512_S8x1x1x512 := by
    dsimp only [Gen.V, Gen.hostOps0]; after_results; rfl
  rw [e]; funext j; exact column_apply 0 (by decide) _ _ _ _ j

/-- Parameter array 1 as the region finds it. -/
theorem found_e1 (c : Dev nD) : (V m c main_v12 : S8x1x1x512.Idx → EReal) = fun j => tableAt m c (entry j 1 (by decide)) := by
  have e : (V m c main_v12 : S8x1x1x512.Idx → EReal)
      = shapeCast S8x1x1x512 (shapeCast S8x512 (extractStridedSlice S8x512x1 ![0, 0, 1] (tableAt m c) slices_S8x512x5_S8x512x1_0_0_1)
          shapeCasts_S8x512x1_S8x512) shapeCasts_S8x512_S8x1x1x512 := by
    dsimp only [Gen.V, Gen.hostOps0]; after_results; rfl
  rw [e]; funext j; exact column_apply 1 (by decide) _ _ _ _ j

/-- Parameter array 2 as the region finds it. -/
theorem found_e2 (c : Dev nD) : (V m c main_v15 : S8x1x1x512.Idx → EReal) = fun j => tableAt m c (entry j 2 (by decide)) := by
  have e : (V m c main_v15 : S8x1x1x512.Idx → EReal)
      = shapeCast S8x1x1x512 (shapeCast S8x512 (extractStridedSlice S8x512x1 ![0, 0, 2] (tableAt m c) slices_S8x512x5_S8x512x1_0_0_2)
          shapeCasts_S8x512x1_S8x512) shapeCasts_S8x512_S8x1x1x512 := by
    dsimp only [Gen.V, Gen.hostOps0]; after_results; rfl
  rw [e]; funext j; exact column_apply 2 (by decide) _ _ _ _ j

/-- Parameter array 3 as the region finds it. -/
theorem found_e3 (c : Dev nD) : (V m c main_v18 : S8x1x1x512.Idx → EReal) = fun j => tableAt m c (entry j 3 (by decide)) := by
  have e : (V m c main_v18 : S8x1x1x512.Idx → EReal)
      = shapeCast S8x1x1x512 (shapeCast S8x512 (extractStridedSlice S8x512x1 ![0, 0, 3] (tableAt m c) slices_S8x512x5_S8x512x1_0_0_3)
          shapeCasts_S8x512x1_S8x512) shapeCasts_S8x512_S8x1x1x512 := by
    dsimp only [Gen.V, Gen.hostOps0]; after_results; rfl
  rw [e]; funext j; exact column_apply 3 (by decide) _ _ _ _ j

/-- Parameter array 4 as the region finds it. -/
theorem found_beta (c : Dev nD) : (V m c main_v21 : S8x1x1x512.Idx → EReal) = fun j => tableAt m c (entry j 4 (by decide)) := by
  have e : (V m c main_v21 : S8x1x1x512.Idx → EReal)
      = shapeCast S8x1x1x512 (shapeCast S8x512 (extractStridedSlice S8x512x1 ![0, 0, 4] (tableAt m c) slices_S8x512x5_S8x512x1_0_0_4)
          shapeCasts_S8x512x1_S8x512) shapeCasts_S8x512_S8x1x1x512 := by
    dsimp only [Gen.V, Gen.hostOps0]; after_results; rfl
  rw [e]; funext j; exact column_apply 4 (by decide) _ _ _ _ j

end Cert.KernelIdeal.Params

end
-- ==== Proof.Cell.lean ====
/-
  One output element of the affine-softplus map, and the whole result array.

  For an input element `z` and the five parameters `(e0, e1, e2, e3, β)` of its (group, channel) pair the
  result is `e0 · zc + e1 · (softplus (β · zc) / β) + e3` with `zc = z - e2`, where the softplus is taken in its
  stable form `max u 0 + log1p (exp (-|u - 0|))`, guarded by the comparison `(u - 0) ≠ (u - 0)` (which selects
  `u + 0`; on the extended reals the comparison never holds, and nothing below needs to know that: both programs
  carry the same guard). The function is written once over any float instance, in the order of operations of the
  blocked program; `cell_of_host` says that, on the extended reals, the whole-array program's spelling of the
  same element — the host quotient, exponential and logarithm, a negation where the blocked program subtracts
  from zero, the unordered comparison where it has the ordered one — is the same number.
-/
import Idealize.ShloMosaic.PureOps.Ideal
import Idealize.ShloMosaic.PureOps.Ideal.Laws
import Idealize.ShloMosaic.Lib.ValueIdx

noncomputable section

namespace Cert.AffineSoftplus

open Idealize.ShloMosaic Idealize.ShloMosaic.ValueIdx

variable {F : FTy → Type} [FloatOps F]

/-- One element of the result from the input element and its five parameters. -/
def cell (z e0 e1 e2 e3 β : F .f32) : F .f32 :=
  FloatOps.addf
    (FloatOps.addf (FloatOps.mulf e0 (FloatOps.subf z e2))
      (FloatOps.mulf e1
        (FloatOps.divf
          (Scalar.select
            (FloatOps.cmpf .one
              (FloatOps.subf (FloatOps.mulf β (FloatOps.subf z e2)) (Scalar.ofBits .f32 0x00000000#32))
              (FloatOps.subf (FloatOps.mulf β (FloatOps.subf z e2)) (Scalar.ofBits .f32 0x00000000#32)))
            (FloatOps.addf (FloatOps.mulf β (FloatOps.subf z e2)) (Scalar.ofBits .f32 0x00000000#32))
            (FloatOps.addf
              (FloatOps.maximumf (FloatOps.mulf β (FloatOps.subf z e2)) (Scalar.ofBits .f32 0x00000000#32))
              (FloatOps.log1p (FloatOps.exp (FloatOps.subf (Scalar.ofBits .f32 0x00000000#32)
                (FloatOps.absf (FloatOps.subf (FloatOps.mulf β (FloatOps.subf z e2)) (Scalar.ofBits .f32 0x00000000#32))))))))
          β)))
    e3

/-- On the extended reals the negation of `a` is `0 - a`, the zero being the all-zero f32 word. -/
theorem neg_eq_zero_sub (a : Ideal .f32) :
    FloatOps.hostNegf (F := Ideal) (φ := .f32) a = FloatOps.subf (F := Ideal) (φ := .f32) (Scalar.ofBits .f32 0x00000000#32) a := by
  show (-a : EReal) = Ideal.ofBits .f32 0x00000000#32 - a
  rw [Ideal.ofBits_zero_f32, zero_sub]

/-- The whole-array program's spelling of one element is `cell`: its host operations are the same functions of
    the extended reals, its negation is the subtraction from zero, and the two comparisons of a number with itself
    are one. -/
theorem cell_of_host (z e0 e1 e2 e3 β : Ideal .f32) :
    FloatOps.addf (F := Ideal) (φ := .f32)
      (FloatOps.addf (FloatOps.mulf e0 (FloatOps.subf z e2))
        (FloatOps.mulf e1
          (FloatOps.hostDivf
            (Scalar.select
              (FloatOps.cmpf .une
                (FloatOps.subf (FloatOps.mulf β (FloatOps.subf z e2)) (FloatOps.ofBits .f32 0x00000000#32))
                (FloatOps.subf (FloatOps.mulf β (FloatOps.subf z e2)) (FloatOps.ofBits .f32 0x00000000#32)))
              (FloatOps.addf (FloatOps.mulf β (FloatOps.subf z e2)) (FloatOps.ofBits .f32 0x00000000#32))
              (FloatOps.addf
                (FloatOps.maximumf (FloatOps.mulf β (FloatOps.subf z e2)) (FloatOps.ofBits .f32 0x00000000#32))
                (FloatOps.hostUnary .log1p (FloatOps.hostUnary .exp (FloatOps.hostNegf
                  (FloatOps.hostAbsf (FloatOps.subf (FloatOps.mulf β (FloatOps.subf z e2)) (FloatOps.ofBits .f32 0x00000000#32))))))))
            β)))
      e3
    = cell (F := Ideal) z e0 e1 e2 e3 β := by
  rw [neg_eq_zero_sub]
  rfl

/-- Row `(g, ch)` of the parameter table, entry `k`, for the array index `i = (g, n, b, ch)`. -/
abbrev param (i : (⟨4, ![8, 32, 256, 512]⟩ : Shape).Idx) (k : Fin 5) : (⟨3, ![8, 512, 5]⟩ : Shape).Idx :=
  ix3 (n0 := 8) (n1 := 512) (n2 := 5) ⟨(i 0).val, (i 0).isLt⟩ ⟨(i 3).val, (i 3).isLt⟩ k

/-- The whole result: entry `(g, n, b, ch)` is `cell` of `z` there and of row `(g, ch)` of the parameter table. -/
def result (z : FVec Ideal ⟨4, ![8, 32, 256, 512]⟩ .f32) (tab : FVec Ideal ⟨3, ![8, 512, 5]⟩ .f32) :
    FVec Ideal ⟨4, ![8, 32, 256, 512]⟩ .f32 :=
  fun i => cell (F := Ideal) (z i) (tab (param i 0)) (tab (param i 1)) (tab (param i 2)) (tab (param i 3)) (tab (param i 4))

end Cert.AffineSoftplus

end
-- ==== Proof.KernelBlockReads.lean ====
/-
  Each input block's element, for the output block's element `y` at grid point `t`, as the whole arrays at the
  ARRAY index of `y`.

  The output's block at point `t = (g, q)` is rows `n ∈ [4q, 4q + 4)` of group `g`; the input `z` moves with it (same
  index map), and each parameter window moves with the group only: its block is row `(g, 0, 0, ·)` of its array
  `[8, 1, 1, 512]`. These relations between the printed index maps are decided once over the 64 grid points
  (`index_z`, `index_out`, `index_e0` …). With them the element of `z`'s block under `y` is `z` at `y`'s array
  index, and the element of parameter `k`'s block that the body's broadcast reads for `y` is the gathered table's
  entry `(g, ch, k)` of that array index.
-/
import proofs.«131095_j45406394253469_1_alg».proof.Proof.Gen.KernelIdeal.Value
import proofs.«131095_j45406394253469_1_alg».proof.Proof.KernelParams
import proofs.«131095_j45406394253469_1_alg».proof.Proof.Cell
import Idealize.ShloMosaic.Lib.Pipeline.Value
import Idealize.ShloMosaic.Lib.ValueIdx

noncomputable section

namespace Cert.KernelIdeal.BlockReads

open Cert.KernelIdeal Cert.KernelIdeal.Gen Cert.KernelIdeal.Value Cert.KernelIdeal.Params
open Idealize.ShloMosaic Idealize.ShloMosaic.TcCoe Idealize.SL.Sem Idealize.ShloMosaic.ValueIdx Cert.AffineSoftplus

variable (m : (ℓ : Loc nD τ sig) → Buf (Elt Ideal) ℓ)

/-- The input's window moves with the output's: the same block index on every axis. -/
theorem index_z : ∀ t : Fin cfg0.N, win0_0.index t (0 : Fin 4) = win0_6.index t (0 : Fin 4)
    ∧ win0_0.index t (1 : Fin 4) = win0_6.index t (1 : Fin 4)
    ∧ win0_0.index t (2 : Fin 4) = win0_6.index t (2 : Fin 4)
    ∧ win0_0.index t (3 : Fin 4) = win0_6.index t (3 : Fin 4) :=
  (by decide +kernel : ∀ t : Fin grid0.N, _)

/-- The output's block index is 0 on the two whole axes and below 8 on the two blocked ones. -/
theorem index_out : ∀ t : Fin cfg0.N, win0_6.index t (2 : Fin 4) = 0 ∧ win0_6.index t (3 : Fin 4) = 0
    ∧ win0_6.index t (0 : Fin 4) ≤ 7 ∧ win0_6.index t (1 : Fin 4) ≤ 7 :=
  (by decide +kernel : ∀ t : Fin grid0.N, _)

/-- Parameter window 1 moves with the group only. -/
theorem index_e0 : ∀ t : Fin cfg0.N, win0_1.index t (0 : Fin 4) = win0_6.index t (0 : Fin 4)
    ∧ win0_1.index t (1 : Fin 4) = 0 ∧ win0_1.index t (2 : Fin 4) = 0 ∧ win0_1.index t (3 : Fin 4) = 0 :=
  (by decide +kernel : ∀ t : Fin grid0.N, _)

/-- Parameter window 2 moves with the group only. -/
theorem index_e1 : ∀ t : Fin cfg0.N, win0_2.index t (0 : Fin 4) = win0_6.index t (0 : Fin 4)
    ∧ win0_2.index t (1 : Fin 4) = 0 ∧ win0_2.index t (2 : Fin 4) = 0 ∧ win0_2.index t (3 : Fin 4) = 0 :=
  (by decide +kernel : ∀ t : Fin grid0.N, _)

/-- Parameter window 3 moves with the group only. -/
theorem index_e2 : ∀ t : Fin cfg0.N, win0_3.index t (0 : Fin 4) = win0_6.index t (0 : Fin 4)
    ∧ win0_3.index t (1 : Fin 4) = 0 ∧ win0_3.index t (2 : Fin 4) = 0 ∧ win0_3.index t (3 : Fin 4) = 0 :=
  (by decide +kernel : ∀ t : Fin grid0.N, _)

/-- Parameter window 4 moves with the group only. -/
theorem index_e3 : ∀ t : Fin cfg0.N, win0_4.index t (0 : Fin 4) = win0_6.index t (0 : Fin 4)
    ∧ win0_4.index t (1 : Fin 4) = 0 ∧ win0_4.index t (2 : Fin 4) = 0 ∧ win0_4.index t (3 : Fin 4) = 0 :=
  (by decide +kernel : ∀ t : Fin grid0.N, _)

/-- Parameter window 5 moves with the group only. -/
theorem index_beta : ∀ t : Fin cfg0.N, win0_5.index t (0 : Fin 4) = win0_6.index t (0 : Fin 4)
    ∧ win0_5.index t (1 : Fin 4) = 0 ∧ win0_5.index t (2 : Fin 4) = 0 ∧ win0_5.index t (3 : Fin 4) = 0 :=
  (by decide +kernel : ∀ t : Fin grid0.N, _)

/-- The element of `z`'s block under `y` is `z` (as the region finds it) at `y`'s array index. -/
theorem block_z (c : Dev nD) (t : Fin cfg0.N) (y : S1x4x256x512.Idx) :
    iblk m c 0 t (ix6_1 y) = V m c main_arg0 (((cfg0.win 6).blk t).view.emb y) := by
  obtain ⟨z0, z1, z2, z3⟩ := index_z t
  have hy0 : (y 0).val < 1 := (y 0).isLt
  show V m c main_arg0 (((cfg0.win 0).blk t).view.emb (ix6_1 y)) = V m c main_arg0 (((cfg0.win 6).blk t).view.emb y)
  have h : ((cfg0.win 0).blk t).view.emb (ix6_1 y) = ((cfg0.win 6).blk t).view.emb y := by
    funext a; apply Fin.ext
    match a with
    | ⟨0, _⟩ => show win0_0.index t (0 : Fin 4) * 1 + 1 * 0 = win0_6.index t (0 : Fin 4) * 1 + 1 * (y 0).val; omega
    | ⟨1, _⟩ => show win0_0.index t (1 : Fin 4) * 4 + 1 * (y 1).val = win0_6.index t (1 : Fin 4) * 4 + 1 * (y 1).val; omega
    | ⟨2, _⟩ => show win0_0.index t (2 : Fin 4) * 256 + 1 * (y 2).val = win0_6.index t (2 : Fin 4) * 256 + 1 * (y 2).val; omega
    | ⟨3, _⟩ => show win0_0.index t (3 : Fin 4) * 512 + 1 * (y 3).val = win0_6.index t (3 : Fin 4) * 512 + 1 * (y 3).val; omega
  rw [h]

/-- The element of parameter 0's block that the body reads for `y` is the gathered table's entry `(g, ch, 0)` of
    `y`'s array index. -/
theorem block_e0 (c : Dev nD) (t : Fin cfg0.N) (y : S1x4x256x512.Idx) :
    iblk m c 1 t (ix6_0 y) = tableAt m c (param (((cfg0.win 6).blk t).view.emb y) 0) := by
  obtain ⟨p0, p1, p2, p3⟩ := index_e0 t
  obtain ⟨o2, o3, o0, o1⟩ := index_out t
  have hy0 : (y 0).val < 1 := (y 0).isLt
  show V m c main_v9 (((cfg0.win 1).blk t).view.emb (ix6_0 y)) = _
  rw [found_e0 m c]
  show tableAt m c (entry (((cfg0.win 1).blk t).view.emb (ix6_0 y)) 0 (by decide)) = _
  have h : entry (((cfg0.win 1).blk t).view.emb (ix6_0 y)) 0 (by decide) = param (((cfg0.win 6).blk t).view.emb y) 0 := by
    funext a; apply Fin.ext
    match a with
    | ⟨0, _⟩ => show win0_1.index t (0 : Fin 4) * 1 + 1 * 0 = win0_6.index t (0 : Fin 4) * 1 + 1 * (y 0).val; omega
    | ⟨1, _⟩ => show win0_1.index t (3 : Fin 4) * 512 + 1 * (y 3).val = win0_6.index t (3 : Fin 4) * 512 + 1 * (y 3).val; omega
    | ⟨2, _⟩ => rfl
  rw [h]

/-- The element of parameter 1's block that the body reads for `y` is the gathered table's entry `(g, ch, 1)` of
    `y`'s array index. -/
theorem block_e1 (c : Dev nD) (t : Fin cfg0.N) (y : S1x4x256x512.Idx) :
    iblk m c 2 t (ix6_3 y) = tableAt m c (param (((cfg0.win 6).blk t).view.emb y) 1) := by
  obtain ⟨p0, p1, p2, p3⟩ := index_e1 t
  obtain ⟨o2, o3, o0, o1⟩ := index_out t
  have hy0 : (y 0).val < 1 := (y 0).isLt
  show V m c main_v12 (((cfg0.win 2).blk t).view.emb (ix6_3 y)) = _
  rw [found_e1 m c]
  show tableAt m c (entry (((cfg0.win 2).blk t).view.emb (ix6_3 y)) 1 (by decide)) = _
  have h : entry (((cfg0.win 2).blk t).view.emb (ix6_3 y)) 1 (by decide) = param (((cfg0.win 6).blk t).view.emb y) 1 := by
    funext a; apply Fin.ext
    match a with
    | ⟨0, _⟩ => show win0_2.index t (0 : Fin 4) * 1 + 1 * 0 = win0_6.index t (0 : Fin 4) * 1 + 1 * (y 0).val; omega
    | ⟨1, _⟩ => show win0_2.index t (3 : Fin 4) * 512 + 1 * (y 3).val = win0_6.index t (3 : Fin 4) * 512 + 1 * (y 3).val; omega
    | ⟨2, _⟩ => rfl
  rw [h]

/-- The element of parameter 2's block that the body reads for `y` is the gathered table's entry `(g, ch, 2)` of
    `y`'s array index. -/
theorem block_e2 (c : Dev nD) (t : Fin cfg0.N) (y : S1x4x256x512.Idx) :
    iblk m c 3 t (ix6_2 y) = tableAt m c (param (((cfg0.win 6).blk t).view.emb y) 2) := by
  obtain ⟨p0, p1, p2, p3⟩ := index_e2 t
  obtain ⟨o2, o3, o0, o1⟩ := index_out t
  have hy0 : (y 0).val < 1 := (y 0).isLt
  show V m c main_v15 (((cfg0.win 3).blk t).view.emb (ix6_2 y)) = _
  rw [found_e2 m c]
  show tableAt m c (entry (((cfg0.win 3).blk t).view.emb (ix6_2 y)) 2 (by decide)) = _
  have h : entry (((cfg0.win 3).blk t).view.emb (ix6_2 y)) 2 (by decide) = param (((cfg0.win 6).blk t).view.emb y) 2 := by
    funext a; apply Fin.ext
    match a with
    | ⟨0, _⟩ => show win0_3.index t (0 : Fin 4) * 1 + 1 * 0 = win0_6.index t (0 : Fin 4) * 1 + 1 * (y 0).val; omega
    | ⟨1, _⟩ => show win0_3.index t (3 : Fin 4) * 512 + 1 * (y 3).val = win0_6.index t (3 : Fin 4) * 512 + 1 * (y 3).val; omega
    | ⟨2, _⟩ => rfl
  rw [h]

/-- The element of parameter 3's block that the body reads for `y` is the gathered table's entry `(g, ch, 3)` of
    `y`'s array index. -/
theorem block_e3 (c : Dev nD) (t : Fin cfg0.N) (y : S1x4x256x512.Idx) :
    iblk m c 4 t (ix6_20 y) = tableAt m c (param (((cfg0.win 6).blk t).view.emb y) 3) := by
  obtain ⟨p0, p1, p2, p3⟩ := index_e3 t
  obtain ⟨o2, o3, o0, o1⟩ := index_out t
  have hy0 : (y 0).val < 1 := (y 0).isLt
  show V m c main_v18 (((cfg0.win 4).blk t).view.emb (ix6_20 y)) = _
  rw [found_e3 m c]
  show tableAt m c (entry (((cfg0.win 4).blk t).view.emb (ix6_20 y)) 3 (by decide)) = _
  have h : entry (((cfg0.win 4).blk t).view.emb (ix6_20 y)) 3 (by decide) = param (((cfg0.win 6).blk t).view.emb y) 3 := by
    funext a; apply Fin.ext
    match a with
    | ⟨0, _⟩ => show win0_4.index t (0 : Fin 4) * 1 + 1 * 0 = win0_6.index t (0 : Fin 4) * 1 + 1 * (y 0).val; omega
    | ⟨1, _⟩ => show win0_4.index t (3 : Fin 4) * 512 + 1 * (y 3).val = win0_6.index t (3 : Fin 4) * 512 + 1 * (y 3).val; omega
    | ⟨2, _⟩ => rfl
  rw [h]

/-- The element of parameter 4's block that the body reads for `y` is the gathered table's entry `(g, ch, 4)` of
    `y`'s array index. -/
theorem block_beta (c : Dev nD) (t : Fin cfg0.N) (y : S1x4x256x512.Idx) :
    iblk m c 5 t (ix6_4 y) = tableAt m c (param (((cfg0.win 6).blk t).view.emb y) 4) := by
  obtain ⟨p0, p1, p2, p3⟩ := index_beta t
  obtain ⟨o2, o3, o0, o1⟩ := index_out t
  have hy0 : (y 0).val < 1 := (y 0).isLt
  show V m c main_v21 (((cfg0.win 5).blk t).view.emb (ix6_4 y)) = _
  rw [found_beta m c]
  show tableAt m c (entry (((cfg0.win 5).blk t).view.emb (ix6_4 y)) 4 (by decide)) = _
  have h : entry (((cfg0.win 5).blk t).view.emb (ix6_4 y)) 4 (by decide) = param (((cfg0.win 6).blk t).view.emb y) 4 := by
    funext a; apply Fin.ext
    match a with
    | ⟨0, _⟩ => show win0_5.index t (0 : Fin 4) * 1 + 1 * 0 = win0_6.index t (0 : Fin 4) * 1 + 1 * (y 0).val; omega
    | ⟨1, _⟩ => show win0_5.index t (3 : Fin 4) * 512 + 1 * (y 3).val = win0_6.index t (3 : Fin 4) * 512 + 1 * (y 3).val; omega
    | ⟨2, _⟩ => rfl
  rw [h]

end Cert.KernelIdeal.BlockReads

end
-- ==== Proof.KernelResult.lean ====
/-
  The blocked program's result array is `Cert.AffineSoftplus.result` of the input and the gathered table.

  At every grid point the body leaves in the output block, element by element, `cell` of the input block's element
  and of the five parameter blocks' elements in the same lane (`body_block`: the generated reading of the body's one
  store as one function of its loads, with the whole-block loads read through). By the block reads those elements are
  the whole arrays at the element's array index, so the point writes back its block of `result` (`flushed_eq`). The 64
  blocks `[1, 4, 256, 512]` tile the array `[8, 32, 256, 512]` — index `(g, n, ·, ·)` lies in the block of the point with
  block index `(g, n / 4)`, and every such block index is some point's (`index_onto`, decided) — so the array ends holding
  `result` (`final`), and the frame run is re-posted with that name (`run`).
-/
import proofs.«131095_j45406394253469_1_alg».proof.Proof.KernelBlockReads

noncomputable section

namespace Cert.KernelIdeal.Result

open Cert.KernelIdeal Cert.KernelIdeal.Gen Cert.KernelIdeal.Value Cert.KernelIdeal.Params Cert.KernelIdeal.BlockReads
open Idealize.ShloMosaic Idealize.ShloMosaic.TcCoe Idealize.SL.Sem Idealize.ShloMosaic.ValueIdx Cert.AffineSoftplus
open Idealize.ShloMosaic.Pipeline (Dat)

variable (m : (ℓ : Loc nD τ sig) → Buf (Elt Ideal) ℓ) (ρ : Dev nD → PrngReg)

/-- The offsets of a whole-block access are all zero. -/
theorem zero_offsets : (![0, 0, 0, 0] : Fin 4 → Nat) = fun _ => 0 := funext fun a => by fin_cases a <;> rfl

/-- What the body leaves in the output block, over any loaded blocks: at `y`, `cell` of the input block at `y` and of
    the parameter blocks in `y`'s lane. -/
theorem body_block (x0 : Vec Ideal S1x4x256x512 .f32) (x1 x2 x3 x4 x5 : Vec Ideal S1x1x1x512 .f32) :
    out0_6 x0 x1 x2 x3 x4 x5
      = fun y => cell (F := Ideal) (x0 (ix6_1 y)) (x1 (ix6_0 y)) (x2 (ix6_3 y)) (x3 (ix6_2 y)) (x4 (ix6_20 y)) (x5 (ix6_4 y)) := by
  funext y
  unfold out0_6
  rw [canon6_eq]
  simp only [View.ld_unit_zero (S := S1x4x256x512) zero_offsets, View.ld_unit_zero (S := S1x1x1x512) zero_offsets]
  rfl

/-- What point `t` writes back is its block of `result` of the arrays as the region finds them. -/
theorem flushed_eq (c : Dev nD) (t : Fin cfg0.N) :
    (dats m 0 c).flushed 6 t = ((cfg0.win 6).blk t).view.read (Elt Ideal) (result (V m c main_arg0) (tableAt m c)) := by
  show (cfg0.win 6).cut (grid0.coords t) ((dats m 0 c).after 6 t) = _
  rw [after0_6, body_block (iblk m c 0 t) (iblk m c 1 t) (iblk m c 2 t) (iblk m c 3 t) (iblk m c 4 t) (iblk m c 5 t)]
  funext y
  show cell (F := Ideal) (iblk m c 0 t (ix6_1 y)) (iblk m c 1 t (ix6_0 y)) (iblk m c 2 t (ix6_3 y)) (iblk m c 3 t (ix6_2 y))
      (iblk m c 4 t (ix6_20 y)) (iblk m c 5 t (ix6_4 y))
    = result (V m c main_arg0) (tableAt m c) (((cfg0.win 6).blk t).view.emb y)
  rw [block_z m c t y, block_e0 m c t y, block_e1 m c t y, block_e2 m c t y, block_e3 m c t y, block_beta m c t y]
  rfl

/-- An index of the array is in point `t`'s block iff each coordinate is in the block's range on its axis. -/
theorem mem_blk (t : Fin cfg0.N) (i : S8x32x256x512.Idx) :
    i ∈ ((cfg0.win 6).blk t).view.set ↔ ∀ a : Fin 4, win0_6.index t a * S1x4x256x512.size a ≤ (i a).val
      ∧ (i a).val < win0_6.index t a * S1x4x256x512.size a + S1x4x256x512.size a := by
  show i ∈ ((View.whole main_v22).slice (win0_6.rect t)).set ↔ _
  rw [View.set_slice_whole, Rect.mem_set_unit]
  exact Iff.rfl

/-- Every block index `(g, q, 0, 0)` with `g, q < 8` is some grid point's. -/
theorem index_onto : ∀ (g : Fin 8) (q : Fin 8), ∃ t : Fin cfg0.N, win0_6.index t = ![g.val, q.val, 0, 0] :=
  (by decide +kernel : ∀ (g : Fin 8) (q : Fin 8), ∃ t : Fin grid0.N, win0_6.index t = ![g.val, q.val, 0, 0])

/-- Every index of the array is in some point's block: that of the point with block index `(g, n / 4)`. -/
theorem covered (i : S8x32x256x512.Idx) :
    ∃ t : Fin cfg0.N, (cfg0.win 6).flush t = true ∧ i ∈ ((cfg0.win 6).blk t).view.set := by
  have hi0 : (i 0).val < 8 := (i 0).isLt
  have hi1 : (i 1).val < 32 := (i 1).isLt
  have hi2 : (i 2).val < 256 := (i 2).isLt
  have hi3 : (i 3).val < 512 := (i 3).isLt
  obtain ⟨t, ht⟩ := index_onto ⟨(i 0).val, hi0⟩ ⟨(i 1).val / 4, by omega⟩
  have q0 : win0_6.index t (0 : Fin 4) = (i 0).val := congrFun ht 0
  have q1 : win0_6.index t (1 : Fin 4) = (i 1).val / 4 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 4 ≤ (i 1).val ∧ (i 1).val < win0_6.index t (1 : Fin 4) * 4 + 4; omega
  | ⟨2, _⟩ => show win0_6.index t (2 : Fin 4) * 256 ≤ (i 2).val ∧ (i 2).val < win0_6.index t (2 : Fin 4) * 256 + 256; omega
  | ⟨3, _⟩ => show win0_6.index t (3 : Fin 4) * 512 ≤ (i 3).val ∧ (i 3).val < win0_6.index t (3 : Fin 4) * 512 + 512; omega

/-- The result array after the run: `result` of the input as launched and of the table gathered from the launch contents. -/
theorem final (c : Dev nD) :
    (dats m 0 c).arrAt 6 cfg0.N = result (m ((c : Thread nD τ).loc main_arg0)) (tableAt m c) := by
  rw [(dats m 0 c).arrAt_eq_of_cover 6 (result (V m c main_arg0) (tableAt m c)) (fun t _ => flushed_eq m c t) covered,
    V_main_arg0]

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v22) = result (m ((c : Thread nD τ).loc main_arg0)) (tableAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefValue.lean ====
/-
  The whole-array program computes `Cert.AffineSoftplus.result`.

  Its result is read one operation at a time down to the gathered parameter table `[8, 512, 5]`: each of the five
  parameters reaches the element `(g, n, b, ch)` through a broadcast over a pair of new unit axes, a unit slice on
  the last axis, a reshape that drops that axis and a broadcast over `n` and `b`, so it is the table's entry
  `(g, ch, k)`; the rest is the element's arithmetic, which is `cell`'s (`cell_of_host`).
-/
import proofs.«131095_j45406394253469_1_alg».proof.Proof.Gen.ReferenceIdeal.Read
import proofs.«131095_j45406394253469_1_alg».proof.Proof.Cell
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.AffineSoftplus

/-- Through its four layout operations parameter 0 at `(g, n, b, ch)` is the table's entry `(g, ch, 0)`. -/
theorem at_e0 (i : S8x32x256x512.Idx) : idx_main_v7 (idx_main_v8 (idx_main_v9 (idx_main_v25 i))) = param i 0 := by
  have h0 : (i 0).val < 8 := (i 0).isLt
  have h3 : (i 3).val < 512 := (i 3).isLt
  funext a; apply Fin.ext
  match a with
  | ⟨0, _⟩ => show ((((i 0).val * 1 + 0) * 1 + 0) * 512 + (i 3).val) / 512 = (i 0).val; omega
  | ⟨1, _⟩ => show ((((i 0).val * 1 + 0) * 1 + 0) * 512 + (i 3).val) / 1 % 512 = (i 3).val; omega
  | ⟨2, _⟩ => show 0 = 0; rfl

/-- Parameter 1 at `(g, n, b, ch)` is the table's entry `(g, ch, 1)`. -/
theorem at_e1 (i : S8x32x256x512.Idx) : idx_main_v7 (idx_main_v10 (idx_main_v11 (idx_main_v27 i))) = param i 1 := by
  have h0 : (i 0).val < 8 := (i 0).isLt
  have h3 : (i 3).val < 512 := (i 3).isLt
  funext a; apply Fin.ext
  match a with
  | ⟨0, _⟩ => show ((((i 0).val * 1 + 0) * 1 + 0) * 512 + (i 3).val) / 512 = (i 0).val; omega
  | ⟨1, _⟩ => show ((((i 0).val * 1 + 0) * 1 + 0) * 512 + (i 3).val) / 1 % 512 = (i 3).val; omega
  | ⟨2, _⟩ => show 1 + 0 = 1; rfl

/-- Parameter 2 at `(g, n, b, ch)` is the table's entry `(g, ch, 2)`. -/
theorem at_e2 (i : S8x32x256x512.Idx) : idx_main_v7 (idx_main_v12 (idx_main_v13 (idx_main_v18 i))) = param i 2 := by
  have h0 : (i 0).val < 8 := (i 0).isLt
  have h3 : (i 3).val < 512 := (i 3).isLt
  funext a; apply Fin.ext
  match a with
  | ⟨0, _⟩ => show ((((i 0).val * 1 + 0) * 1 + 0) * 512 + (i 3).val) / 512 = (i 0).val; omega
  | ⟨1, _⟩ => show ((((i 0).val * 1 + 0) * 1 + 0) * 512 + (i 3).val) / 1 % 512 = (i 3).val; omega
  | ⟨2, _⟩ => show 2 + 0 = 2; rfl

/-- Parameter 3 at `(g, n, b, ch)` is the table's entry `(g, ch, 3)`. -/
theorem at_e3 (i : S8x32x256x512.Idx) : idx_main_v7 (idx_main_v14 (idx_main_v15 (idx_main_v30 i))) = param i 3 := by
  have h0 : (i 0).val < 8 := (i 0).isLt
  have h3 : (i 3).val < 512 := (i 3).isLt
  funext a; apply Fin.ext
  match a with
  | ⟨0, _⟩ => show ((((i 0).val * 1 + 0) * 1 + 0) * 512 + (i 3).val) / 512 = (i 0).val; omega
  | ⟨1, _⟩ => show ((((i 0).val * 1 + 0) * 1 + 0) * 512 + (i 3).val) / 1 % 512 = (i 3).val; omega
  | ⟨2, _⟩ => show 3 + 0 = 3; rfl

/-- Parameter 4 at `(g, n, b, ch)` — the factor of the softplus argument and, broadcast a second time the same way, the
    divisor — is the table's entry `(g, ch, 4)`. -/
theorem at_beta (i : S8x32x256x512.Idx) : idx_main_v7 (idx_main_v16 (idx_main_v17 (idx_main_v20 i))) = param i 4 := by
  have h0 : (i 0).val < 8 := (i 0).isLt
  have h3 : (i 3).val < 512 := (i 3).isLt
  funext a; apply Fin.ext
  match a with
  | ⟨0, _⟩ => show ((((i 0).val * 1 + 0) * 1 + 0) * 512 + (i 3).val) / 512 = (i 0).val; omega
  | ⟨1, _⟩ => show ((((i 0).val * 1 + 0) * 1 + 0) * 512 + (i 3).val) / 1 % 512 = (i 3).val; omega
  | ⟨2, _⟩ => show 4 + 0 = 4; rfl

/-- The last stage of the whole-array program is `result` of the input and the gathered table. -/
theorem stage_eq_result (x0 : (⟨S8x32x256x512, .f32⟩ : BufTy).Contents (Elt Ideal)) (x1 : (⟨S8x512, .i32⟩ : BufTy).Contents (Elt Ideal))
    (x2 : (⟨S13x5, .f32⟩ : BufTy).Contents (Elt Ideal)) :
    val_main_v31 (F := Ideal) x0 x1 x2 = result x0 (val_main_v6 (F := Ideal) x1 x2) := by
  funext i
  simp only [val_main_v31_apply, val_main_v30_apply, val_main_v29_apply, val_main_v28_apply, val_main_v27_apply,
    val_main_v26_apply, val_main_v25_apply, val_main_v24_apply, val_main_v23_apply, val_main_v22_apply,
    val_main_call0_v11_apply, val_main_call0_v10_apply, val_main_call0_v9_apply, val_main_call0_v8_apply,
    val_main_call0_v7_apply, val_main_call0_v6_apply, val_main_call0_v5_apply, val_main_call0_v4_apply,
    val_main_call0_v3_apply, val_main_call0_v2_apply, val_main_call0_v1_apply, val_main_call0_v0_apply,
    val_main_call0_cst_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply, val_main_v7_apply]
  rw [at_e0, at_e1, at_e2, at_e3, at_beta]
  exact cell_of_host (x0 i) _ _ _ _ _

end Cert.ReferenceIdeal.RefValue

end
-- ==== Proof.lean ====
/-
  The blocked affine-softplus program against the whole-array one, over the extended reals.

  Both programs first gather, for every (group, channel) pair, the row of the 13 × 5 parameter table that the
  pair's mask entry selects: the same host operations of the same arguments (`same_table`), so the gathered table is
  carried as one function and never opened. With `zc = z - e2` both then compute, element by element,
  `e0 · zc + e1 · (softplus (β · zc) / β) + e3`, the softplus in its stable form: `Cert.AffineSoftplus.cell`, and the
  whole array `Cert.AffineSoftplus.result` of the input and the table (Proof/Cell.lean). No law of arithmetic is needed
  beyond `0 - a = -a` (the blocked program subtracts from zero where the other negates), so the finiteness of the
  inputs is never used.

  • The whole-array program's last stage is `result` (Proof/RefValue.lean, over the generated reading of its run one
    operation at a time).
  • The blocked program's result array ends at `result` (Proof/KernelParams.lean: the parameter arrays the region
    finds are the table's columns; Proof/KernelBlockReads.lean: each input block's element as the whole arrays at
    the output element's array index; Proof/KernelResult.lean: what the body leaves in a block, what each grid
    point writes back, the 64 blocks tile the array, the run).
  • The three frames are the generated ones (the whole-array program's is its generated run with the result
    dropped); the idealization rewrote nothing, so `preserves` is `True`.
-/
import proofs.«131095_j45406394253469_1_alg».proof.Defs
import proofs.«131095_j45406394253469_1_alg».proof.Proof.Gen.Kernel
import proofs.«131095_j45406394253469_1_alg».proof.Proof.Gen.Kernel.Skeleton
import proofs.«131095_j45406394253469_1_alg».proof.Proof.Gen.Kernel.Launch
import proofs.«131095_j45406394253469_1_alg».proof.Proof.Gen.Kernel.Points
import proofs.«131095_j45406394253469_1_alg».proof.Proof.Gen.Kernel.Frame
import proofs.«131095_j45406394253469_1_alg».proof.Proof.Gen.KernelIdeal
import proofs.«131095_j45406394253469_1_alg».proof.Proof.Gen.KernelIdeal.Skeleton
import proofs.«131095_j45406394253469_1_alg».proof.Proof.Gen.KernelIdeal.Launch
import proofs.«131095_j45406394253469_1_alg».proof.Proof.Gen.KernelIdeal.Points
import proofs.«131095_j45406394253469_1_alg».proof.Proof.Gen.KernelIdeal.Frame
import proofs.«131095_j45406394253469_1_alg».proof.Proof.Gen.ReferenceIdeal
import proofs.«131095_j45406394253469_1_alg».proof.Proof.Gen.Pre_finite_inputs
import proofs.«131095_j45406394253469_1_alg».proof.Proof.Gen.KernelIdeal.Value
import proofs.«131095_j45406394253469_1_alg».proof.Proof.Gen.ReferenceIdeal.Run
import proofs.«131095_j45406394253469_1_alg».proof.Proof.Gen.ReferenceIdeal.Read
import proofs.«131095_j45406394253469_1_alg».proof.Proof.KernelResult
import proofs.«131095_j45406394253469_1_alg».proof.Proof.RefValue
import Idealize.ShloMosaic.Adequacy
import Idealize.ShloMosaic.Init

noncomputable section

namespace Cert.Proof

open Idealize.ShloMosaic Idealize.ShloMosaic.TcCoe Idealize.SL.Sem

/-- The two programs gather the same table: the same selection of rows, by the same operations, of the same mask
    and 13 × 5 table. -/
theorem same_table (x1 : (⟨Cert.ReferenceIdeal.S8x512, .i32⟩ : BufTy).Contents (Elt Ideal))
    (x2 : (⟨Cert.ReferenceIdeal.S13x5, .f32⟩ : BufTy).Contents (Elt Ideal)) :
    Cert.ReferenceIdeal.Read.val_main_v6 (F := Ideal) x1 x2 = Cert.KernelIdeal.Params.table x1 x2 := rfl

theorem frame_blocked : Cert.frame_Kernel := fun m ρ _ => Cert.Kernel.Gen.frame m ρ

theorem frame_blocked_ideal : Cert.frame_KernelIdeal := fun m ρ _ => Cert.KernelIdeal.Gen.frame m ρ

/-- The whole-array program's frame is its run with the result dropped. -/
theorem frame_whole : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments both programs end with `result` of the input and the gathered
    table in their result arrays. -/
theorem algebraic : Cert.algebraic_KernelIdeal_ReferenceIdeal := by
  intro m ρ m' ρ' _ hagree
  refine ⟨fun c => Cert.AffineSoftplus.result (m ((c : Thread Cert.KernelIdeal.nD Cert.KernelIdeal.τ).loc Cert.KernelIdeal.main_arg0))
      (Cert.KernelIdeal.Params.tableAt m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.stage_eq_result, same_table,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_blocked, frame_blocked_ideal, frame_whole, preserves, algebraic⟩

end Cert.Proof

end
